-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S1024x768 : Shape := ⟨2, ![1024, 768]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S16384x768 .f32) (main_arg1 : FVec F S1024x768 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  main_v8
-- ==== Kernel.lean ====
abbrev S16384x768 : Shape := ⟨2, ![16384, 768]⟩
abbrev S1024x768 : Shape := ⟨2, ![1024, 768]⟩
abbrev S768x1024 : Shape := ⟨2, ![768, 1024]⟩
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x768, .f32⟩
  | .hbm, ⟨1, _⟩ => ⟨S1024x768, .f32⟩
  | .hbm, ⟨2, _⟩ => ⟨S1024x768, .bf16⟩
  | .hbm, ⟨3, _⟩ => ⟨S768x1024, .bf16⟩
  | .hbm, ⟨4, _⟩ => ⟨S16384x1024, .f32⟩
  | .hbm, ⟨5, _⟩ => ⟨S16384x1024, .f32⟩
  | .local _ .vmem, ⟨0, _⟩ => ⟨S1024x768, .f32⟩
  | .local _ .vmem, ⟨1, _⟩ => ⟨S1024x768, .f32⟩
  | .local _ .vmem, ⟨2, _⟩ => ⟨S768x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S1024x768_S768x1024_1_0 : S1024x768.Transposes [1, 0] S768x1024
  inb_S1024x768_S1024x768_0_0 : ∀ a, (![0, 0] : Fin 2 → Nat) a + S1024x768.size a ≤ S1024x768.size a
  h_S1024x768 : 0 < S1024x768.numel
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .bf16 = 32 ∨ (Rect.block (s := S768x1024) S768x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x768 : Shape := ⟨2, ![16384, 768]⟩
abbrev S1024x768 : Shape := ⟨2, ![1024, 768]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S1024x768, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  dot_S16384x768_S1024x768_S16384x1024_1_1_0_0_n_n_wf : DotDims.WF S16384x768 S1024x768 S16384x1024 [1] [1] [0] [0] [] []

variable [Facts₀]

def dot_S16384x768_S1024x768_S16384x1024_1_1_0_0_n_n : DotDims S16384x768 S1024x768 S16384x1024 where
  lhsContracting := [1]
  rhsContracting := [1]
  lhsNonContracting := [0]
  rhsNonContracting := [0]
  lhsBatch := []
  rhsBatch := []
  wf := dot_S16384x768_S1024x768_S16384x1024_1_1_0_0_n_n_wf

class Facts : Prop extends Facts₀ where

variable [Facts]
-- ==== Proof.AnchorDistance.lean ====
/-
  The two results as functions of the whole argument arrays, over the extended reals.

  A batch `x` of 16384 rows of length 768 is projected onto the 1024 rows of a weight matrix `w`:
  `logit (b, c) = ∑ k, x (b, k) · w (c, k)`. The second result is, for each row `L` of that product and each
  column `q`, the Euclidean distance from `L` to the anchor `10 · e_q` written through the identity
  `‖L − 10 e_q‖² = ‖L‖² − 20 · L q + 100`: the square root of that quantity clipped below at zero. The scalars
  `20`, `100` and `0` are kept as their single-precision words, the same words on both sides of the comparison,
  so their values are never needed.
-/
import Idealize.ShloMosaic.PureOps.Ideal
import Idealize.ShloMosaic.Lib.ValueIdx

noncomputable section

namespace Cert.AnchorDistance

open Idealize.ShloMosaic Idealize.ShloMosaic.ValueIdx

/-- Row `p` of the batch against row `q` of the weights: one entry of the projection. -/
def logitAt (x : (⟨2, ![16384, 768]⟩ : Shape).Idx → EReal) (w : (⟨2, ![1024, 768]⟩ : Shape).Idx → EReal)
    (p : Fin 16384) (q : Fin 1024) : EReal :=
  ∑ k : Fin 768, x (ix2 p k) * w (ix2 q k)

/-- The projection as an array. -/
def logits (x : (⟨2, ![16384, 768]⟩ : Shape).Idx → EReal) (w : (⟨2, ![1024, 768]⟩ : Shape).Idx → EReal) :
    (⟨2, ![16384, 1024]⟩ : Shape).Idx → EReal :=
  fun i => logitAt x w (i 0) (i 1)

/-- From one row `L` of the projection, the distance to the anchor of column `q`:
    `√ (max (∑ c, L c · L c − 20 · L q + 100) 0)`. -/
def rowDist (L : Fin 1024 → EReal) (q : Fin 1024) : EReal :=
  Ideal.sqrt (max ((∑ c : Fin 1024, L c * L c) - Ideal.ofBits .f32 0x41A00000#32 * L q + Ideal.ofBits .f32 0x42C80000#32)
    (Ideal.ofBits .f32 0x00000000#32))

/-- The distances as an array: entry `(b, q)` is `rowDist` of row `b` of the projection at column `q`. -/
def distances (x : (⟨2, ![16384, 768]⟩ : Shape).Idx → EReal) (w : (⟨2, ![1024, 768]⟩ : Shape).Idx → EReal) :
    (⟨2, ![16384, 1024]⟩ : Shape).Idx → EReal :=
  fun i => rowDist (fun c => logitAt x w (i 0) c) (i 1)

theorem logits_apply (x : (⟨2, ![16384, 768]⟩ : Shape).Idx → EReal) (w : (⟨2, ![1024, 768]⟩ : Shape).Idx → EReal)
    (p : Fin 16384) (q : Fin 1024) : logits x w (ix2 p q) = logitAt x w p q := rfl

theorem distances_apply (x : (⟨2, ![16384, 768]⟩ : Shape).Idx → EReal) (w : (⟨2, ![1024, 768]⟩ : Shape).Idx → EReal)
    (p : Fin 16384) (q : Fin 1024) : distances x w (ix2 p q) = rowDist (fun c => logitAt x w p c) q := rfl

end Cert.AnchorDistance

end
-- ==== Proof.ReferenceValue.lean ====
/-
  The reference's two results, read one host operation at a time, are the projection and the anchor distances of
  `AnchorDistance`: its contraction pairs row `b` of the batch with row `c` of the weights, its row sum of squares
  starts from the zero word, and the rest is the same pointwise arithmetic.
-/
import proofs.«407896_j70274254897292_3_alg».proof.Proof.Gen.ReferenceIdeal.Read
import proofs.«407896_j70274254897292_3_alg».proof.Proof.AnchorDistance
import Idealize.ShloMosaic.PureOps.Ideal.Laws

noncomputable section

namespace Cert.ReferenceIdeal.RefValue

open Cert.ReferenceIdeal Cert.ReferenceIdeal.Read Idealize.ShloMosaic Idealize.ShloMosaic.ValueIdx Cert.AnchorDistance

/-- The left operand of the contraction is read at row `i 0`, position `k`. -/
theorem lidx_eq (i : S16384x1024.Idx) (k : Fin 768) : lidx_main_v0 i k = ix2 (i 0) k :=
  funext fun a => by match a with | ⟨0, _⟩ => rfl | ⟨1, _⟩ => rfl

/-- The right operand is read at row `i 1`, position `k`. -/
theorem ridx_eq (i : S16384x1024.Idx) (k : Fin 768) : ridx_main_v0 i k = ix2 (i 1) k :=
  funext fun a => by match a with | ⟨0, _⟩ => rfl | ⟨1, _⟩ => rfl

/-- The reference's first result is the projection. -/
theorem logits_eq (x : (⟨S16384x768, .f32⟩ : BufTy).Contents (Elt Ideal)) (w : (⟨S1024x768, .f32⟩ : BufTy).Contents (Elt Ideal)) :
    val_main_v0 (F := Ideal) x w = logits x w := by
  funext i
  rw [val_main_v0_apply]
  simp only [lidx_eq, ridx_eq]
  rfl

/-- The reference's second result is the anchor distances. -/
theorem distances_eq (x : (⟨S16384x768, .f32⟩ : BufTy).Contents (Elt Ideal)) (w : (⟨S1024x768, .f32⟩ : BufTy).Contents (Elt Ideal)) :
    val_main_v12 (F := Ideal) x w = distances x w := by
  funext i
  rw [val_main_v12_apply, val_main_v11_apply, val_main_v9_apply, val_main_v7_apply, val_main_v6_apply, val_main_v3_apply,
    val_main_v2_apply, val_main_v5_apply, val_main_v4_apply, val_main_v8_apply, val_main_v10_apply, val_main_cst_apply,
    val_main_cst_0_apply, val_main_cst_1_apply, val_main_cst_2_apply]
  have hsq : ∀ k : Fin 1024, val_main_v1 (F := Ideal) x w (idx_main_v2 (idx_main_v3 (idx_main_v6 i)) k)
      = logitAt x w (i 0) k * logitAt x w (i 0) k := fun k => by
    show val_main_v0 (F := Ideal) x w _ * val_main_v0 (F := Ideal) x w _ = _
    rw [logits_eq]
    rfl
  simp only [hsq, logits_eq]
  show Ideal.sqrt (max (Ideal.ofBits .f32 0x00000000#32 + (∑ k : Fin 1024, logitAt x w (i 0) k * logitAt x w (i 0) k)
        - Ideal.ofBits .f32 0x41A00000#32 * logitAt x w (i 0) (i 1) + Ideal.ofBits .f32 0x42C80000#32)
        (Ideal.ofBits .f32 0x00000000#32))
      = Ideal.sqrt (max ((∑ c : Fin 1024, logitAt x w (i 0) c * logitAt x w (i 0) c)
        - Ideal.ofBits .f32 0x41A00000#32 * logitAt x w (i 0) (i 1) + Ideal.ofBits .f32 0x42C80000#32)
        (Ideal.ofBits .f32 0x00000000#32))
  rw [Ideal.ofBits_zero_f32, zero_add]

end Cert.ReferenceIdeal.RefValue

end
-- ==== Proof.BlockProduct.lean ====
/-
  What one grid step computes from its two blocks, entry by entry, over the extended reals.

  The step holds 1024 rows of the batch (a block `P0` of shape 1024 × 768) and the whole transposed weight matrix
  (`P1`, 768 × 1024). Its first store is their product: entry `(p, q)` is `∑ k, P0 (p, k) · P1 (k, q)`, the
  accumulator being the zero splat and the two changes of float format the identity. Its second store is, at
  `(p, q)`, `rowDist` of row `p` of that product at column `q`: the lane sum of the squared row, minus
  `20 ·` the entry, plus `100`, clipped at zero, under the square root.
-/
import proofs.«407896_j70274254897292_3_alg».proof.Proof.Gen.KernelIdeal.Value
import proofs.«407896_j70274254897292_3_alg».proof.Proof.AnchorDistance
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Cert.KernelIdeal.Value Idealize.ShloMosaic Idealize.ShloMosaic.ValueIdx
open Cert.AnchorDistance

theorem hz : (![0, 0] : Fin 2 → Nat) = fun _ => 0 := funext fun a => by fin_cases a <;> rfl

/-! ## Where the product reads its operands -/

/-- The left operand is read in the output's row. -/
theorem lhs_row (i : S1024x1024.Idx) (q : dot_S1024x768_S768x1024_S1024x1024_1_0_0_1_n_n.contr.Idx) :
    (dot_S1024x768_S768x1024_S1024x1024_1_0_0_1_n_n.lhsIdx i q 0).val = (i 0).val := by
  unfold DotDims.lhsIdx
  rw [dif_neg (show ¬(0 : Fin S1024x768.rank) ∈ dot_S1024x768_S768x1024_S1024x1024_1_0_0_1_n_n.lhsBatch by decide), dif_pos (show (0 : Fin S1024x768.rank) ∈ dot_S1024x768_S768x1024_S1024x1024_1_0_0_1_n_n.lhsNonContracting by decide)]
  rfl
/-- and at the contracted position; -/
theorem lhs_pos (i : S1024x1024.Idx) (q : dot_S1024x768_S768x1024_S1024x1024_1_0_0_1_n_n.contr.Idx) :
    (dot_S1024x768_S768x1024_S1024x1024_1_0_0_1_n_n.lhsIdx i q 1).val = (q ⟨0, by decide⟩).val :=
  dot_S1024x768_S768x1024_S1024x1024_1_0_0_1_n_n.lhsIdx_val_of_single rfl i q
/-- the right operand at the contracted position -/
theorem rhs_pos (i : S1024x1024.Idx) (q : dot_S1024x768_S768x1024_S1024x1024_1_0_0_1_n_n.contr.Idx) :
    (dot_S1024x768_S768x1024_S1024x1024_1_0_0_1_n_n.rhsIdx i q 0).val = (q ⟨0, by decide⟩).val :=
  dot_S1024x768_S768x1024_S1024x1024_1_0_0_1_n_n.rhsIdx_val_of_single rfl i q
/-- and in the output's column. -/
theorem rhs_col (i : S1024x1024.Idx) (q : dot_S1024x768_S768x1024_S1024x1024_1_0_0_1_n_n.contr.Idx) :
    (dot_S1024x768_S768x1024_S1024x1024_1_0_0_1_n_n.rhsIdx i q 1).val = (i 1).val := by
  unfold DotDims.rhsIdx
  rw [dif_neg (show ¬(1 : Fin S768x1024.rank) ∈ dot_S1024x768_S768x1024_S1024x1024_1_0_0_1_n_n.rhsBatch by decide), dif_pos (show (1 : Fin S768x1024.rank) ∈ dot_S1024x768_S768x1024_S1024x1024_1_0_0_1_n_n.rhsNonContracting by decide)]
  rfl

/-! ## The first store: the block product -/

/-- Entry `(p, q)` of the step's product: row `p` of the batch block against column `q` of the transposed weights. -/
theorem product_apply (P0 : FVec Ideal S1024x768 .f32) (P1 : FVec Ideal S768x1024 .bf16) (p q : Fin 1024) :
    k0_pay1 (F := Ideal) P0 P1 (ix2 p q) = ∑ k : Fin 768, P0 (ix2 p k) * P1 (ix2 k q) := by
  unfold k0_pay1
  simp only [matmul]
  rw [Ideal.matmul_constant_zero_apply, ← Equiv.sum_comp (contrEquiv1 dot_S1024x768_S768x1024_S1024x1024_1_0_0_1_n_n 768 rfl rfl).symm]
  refine Finset.sum_congr rfl fun k _ => ?_
  have hk := contrEquiv1_symm_val dot_S1024x768_S768x1024_S1024x1024_1_0_0_1_n_n 768 rfl rfl k
  have el : dot_S1024x768_S768x1024_S1024x1024_1_0_0_1_n_n.lhsIdx (ix2 p q) ((contrEquiv1 dot_S1024x768_S768x1024_S1024x1024_1_0_0_1_n_n 768 rfl rfl).symm k) = ix2 p k := funext fun a => Fin.ext (by
    match a with
    | ⟨0, _⟩ => exact lhs_row _ _
    | ⟨1, _⟩ => exact (lhs_pos _ _).trans hk)
  have er : dot_S1024x768_S768x1024_S1024x1024_1_0_0_1_n_n.rhsIdx (ix2 p q) ((contrEquiv1 dot_S1024x768_S768x1024_S1024x1024_1_0_0_1_n_n 768 rfl rfl).symm k) = ix2 k q := funext fun a => Fin.ext (by
    match a with
    | ⟨0, _⟩ => exact (rhs_pos _ _).trans hk
    | ⟨1, _⟩ => exact rhs_col _ _)
  rw [el, er, shapeCast_self]
  rfl

/-! ## The second store: the distances of the block's rows -/

/-- Entry `(p, q)` of the step's second store is `rowDist` of row `p` of its product at column `q`. -/
theorem dist_apply (P0 : FVec Ideal S1024x768 .f32) (P1 : FVec Ideal S768x1024 .bf16) (p q : Fin 1024) :
    E3 (F := Ideal) P0 P1 (ix2 p q) = rowDist (fun c => k0_pay1 (F := Ideal) P0 P1 (ix2 p c)) q := by
  have hsum : (multiReduction (F := Ideal) .add [1] S1024 (mulf (k0_pay1 (F := Ideal) P0 P1) (k0_pay1 (F := Ideal) P0 P1)) 0x00000000#32 reduces_S1024x1024_S1024 (.inl rfl) rfl) (ix3_0 (ix2 p q))
      = ∑ c : Fin 1024, k0_pay1 (F := Ideal) P0 P1 (ix2 p c) * k0_pay1 (F := Ideal) P0 P1 (ix2 p c) := by
    refine (Ideal.multiReduction_add_single _ 0x00000000#32 reduces_S1024x1024_S1024 (.inl rfl) rfl _).trans ?_
    refine Finset.sum_congr rfl fun c _ => ?_
    have e : reduces_S1024x1024_S1024.lift (ix3_0 (ix2 p q)) c = ix2 p c :=
      funext fun a => Fin.ext (by match a with | ⟨0, _⟩ => rfl | ⟨1, _⟩ => rfl)
    rw [e]
    rfl
  show Ideal.sqrt (max ((multiReduction (F := Ideal) .add [1] S1024 (mulf (k0_pay1 (F := Ideal) P0 P1) (k0_pay1 (F := Ideal) P0 P1)) 0x00000000#32 reduces_S1024x1024_S1024 (.inl rfl) rfl) (ix3_0 (ix2 p q))
      - Ideal.ofBits .f32 0x41A00000#32 * k0_pay1 (F := Ideal) P0 P1 (ix3_1 (ix2 p q)) + Ideal.ofBits .f32 0x42C80000#32) (Ideal.ofBits .f32 0x00000000#32)) = _
  have hentry : ix3_1 (ix2 p q) = ix2 p q :=
    funext fun a => Fin.ext (by match a with | ⟨0, _⟩ => rfl | ⟨1, _⟩ => rfl)
  rw [hsum, hentry]
  rfl

/-- The same for the second store's payload itself: the step's one store through the whole block leaves its payload,
    which is that function of the block index. -/
theorem second_apply (P0 : FVec Ideal S1024x768 .f32) (P1 : FVec Ideal S768x1024 .bf16) (p q : Fin 1024) :
    k0_pay2 (F := Ideal) P0 P1 (ix2 p q) = rowDist (fun c => k0_pay1 (F := Ideal) P0 P1 (ix2 p c)) q := by
  have h := canon3_eq (F := Ideal) P0 P1 (ix2 p q)
  rw [View.canon_unit_zero hz] at h
  exact h.trans (dist_apply P0 P1 p q)

end Cert.KernelIdeal.BlockValue

end
-- ==== Proof.BlocksToArrays.lean ====
/-
  From what each of the 16 grid steps writes back to the two result arrays, whole.

  Step `t` holds rows `1024 · t … 1024 · t + 1023` of the batch and, at every step, the whole transposed weight
  matrix — the weights with their two axes exchanged by the host before the launch, so that its entry `(k, q)` is the
  weights' entry `(q, k)`. The step's product at local `(p, q)` is therefore the projection's entry at array row
  `1024 · t + p`, column `q`; and since a step's block spans all 1024 columns, the row sum the second store takes is
  the full row's. Each step writes back rows `1024 · t …` of both results; the 16 blocks tile the 16384 rows, row `r`
  belonging to step `r / 1024`, so each result array ends as one function of the arguments.
-/
import proofs.«407896_j70274254897292_3_alg».proof.Proof.BlockProduct
import Idealize.ShloMosaic.Lib.StableHlo.Run
import Idealize.ShloMosaic.Lib.ValueLayout

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.ShloMosaic.ValueIdx Idealize.SL.Sem Idealize.ShloMosaic.StableHlo
open Idealize.ShloMosaic.Pipeline (Dat)
open Cert.AnchorDistance

variable (m : (ℓ : Loc nD τ sig) → Buf (Elt Ideal) ℓ) (ρ : Dev nD → PrngReg)

/-! ## Which block each step holds -/

/-- The block indices over the grid: the batch and both results move down one block of rows per step and stay in
    block column 0; the transposed weights stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 16 := by
  have h : t.val < grid0.N := t.isLt
  rw [N_0] at h
  exact h

/-- The array row that local row `p` of step `t` is. -/
def rowOf (t : Fin cfg0.N) (p : Fin 1024) : Fin 16384 :=
  ⟨t.val * 1024 + p.val, by have := step_lt t; have := p.isLt; omega⟩

/-- The step's block of the batch and its block of the transposed weights. -/
abbrev rowsBlk (c : Dev nD) (t : Fin cfg0.N) : FVec Ideal S1024x768 .f32 := iblk m c 0 t
abbrev wtBlk (c : Dev nD) (t : Fin cfg0.N) : FVec Ideal S768x1024 .bf16 := iblk m c 1 t

/-- Local `(p, k)` of the batch block is the batch at row `1024 · t + p`, position `k`. -/
theorem rows_apply (c : Dev nD) (t : Fin cfg0.N) (p : Fin 1024) (k : Fin 768) :
    rowsBlk m c t (ix2 p k) = (m ((c : Thread nD τ).loc main_arg0)) (ix2 (rowOf t p) k) := by
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 1024 + 1 * p.val = t.val * 1024 + p.val; omega
  | ⟨1, _⟩ => show win0_0.index t (1 : Fin 2) * 768 + 1 * k.val = k.val; omega

/-- What the launch finds in the transposed-weights array: the weights with their axes exchanged. -/
theorem weights_eq (c : Dev nD) :
    (V m c main_v1 : S768x1024.Idx → EReal)
      = transpose S768x1024 [1, 0] (truncf (F := Ideal) .bf16 ((m ((c : Thread nD τ).loc main_arg1)) : FVec Ideal S1024x768 .f32) bitsLt_bf16_f32) transposes_S1024x768_S768x1024_1_0 := by
  dsimp only [Gen.V, Gen.hostOps0]; after_results

/-- Local `(k, q)` of the weights block is the weights at row `q`, position `k`. -/
theorem wt_apply (c : Dev nD) (t : Fin cfg0.N) (k : Fin 768) (q : Fin 1024) :
    wtBlk m c t (ix2 k q) = (m ((c : Thread nD τ).loc main_arg1)) (ix2 q k) := by
  show (V m c main_v1 : S768x1024.Idx → EReal) (((cfg0.win 1).blk t).view.emb (ix2 k q)) = _
  have hemb : ((cfg0.win 1).blk t).view.emb (ix2 k q) = ix2 k q := funext fun a => Fin.ext (by
    obtain ⟨-, -, e2, e3, -⟩ := idx_facts t
    match a with
    | ⟨0, _⟩ => show win0_1.index t (0 : Fin 2) * 768 + 1 * k.val = k.val; omega
    | ⟨1, _⟩ => show win0_1.index t (1 : Fin 2) * 1024 + 1 * q.val = q.val; omega)
  rw [hemb, weights_eq m c]
  exact transpose_ix2_apply _ _ k q

/-- So the step's product at local `(p, q)` is the projection's entry at array row `1024 · t + p`, column `q`. -/
theorem product_at (c : Dev nD) (t : Fin cfg0.N) (p q : Fin 1024) :
    k0_pay1 (F := Ideal) (rowsBlk m c t) (wtBlk m c t) (ix2 p q) = logitAt (m ((c : Thread nD τ).loc main_arg0)) (m ((c : Thread nD τ).loc main_arg1)) (rowOf t p) q := by
  refine (product_apply (rowsBlk m c t) (wtBlk m c t) p q).trans ?_
  unfold logitAt
  refine Finset.sum_congr rfl fun k _ => ?_
  rw [rows_apply m c t p k, wt_apply m c t k q]

/-! ## The first result -/

/-- Local `(p, q)` of the step's block of the first result is array index `(1024 · t + p, q)`. -/
theorem emb2 (t : Fin cfg0.N) (p q : Fin 1024) : ((cfg0.win 2).blk t).view.emb (ix2 p q) = ix2 (rowOf t p) q := by
  obtain ⟨-, -, -, -, e4, e5, -⟩ := idx_facts t
  funext a; apply Fin.ext
  match a with
  | ⟨0, _⟩ => show win0_2.index t (0 : Fin 2) * 1024 + 1 * p.val = t.val * 1024 + p.val; omega
  | ⟨1, _⟩ => show win0_2.index t (1 : Fin 2) * 1024 + 1 * q.val = q.val; omega

/-- What step `t` writes back to the first result is block `t` of the projection. -/
theorem flushed2_eq (c : Dev nD) (t : Fin cfg0.N) :
    (dats m 0 c).flushed 2 t = ((cfg0.win 2).blk t).view.read (Elt Ideal) (logits (m ((c : Thread nD τ).loc main_arg0)) (m ((c : Thread nD τ).loc main_arg1))) := by
  rw [Value.flushed2]
  unfold out0_2
  rw [View.canon_unit_zero hz]
  simp only [View.ld_unit_zero (S := S1024x768) hz, View.ld_unit_zero (S := S768x1024) hz]
  funext j
  obtain ⟨p, q, rfl⟩ : ∃ (p q : Fin 1024), j = ix2 p q := ⟨j 0, j 1, eq_ix2 j⟩
  show k0_pay1 (F := Ideal) (rowsBlk m c t) (wtBlk m c t) (ix2 p q) = logits _ _ (((cfg0.win 2).blk t).view.emb (ix2 p q))
  rw [emb2, logits_apply]
  exact product_at m c t p q

/-- An array index is in step `t`'s block iff each coordinate is in the block's range on its axis. -/
theorem mem_blk2 (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2_0).slice (win0_2.rect t)).set ↔ _
  rw [View.set_slice_whole, Rect.mem_set_unit]
  exact Iff.rfl

/-- The step that owns an array row: `r / 1024`. -/
def stepOf (i : S16384x1024.Idx) : Fin cfg0.N :=
  ⟨(i 0).val / 1024, by have h : (i 0).val < 16384 := (i 0).isLt; show (i 0).val / 1024 < grid0.N; rw [N_0]; omega⟩

/-- Every index of the first result is in some step's block. -/
theorem cover2 (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  refine ⟨stepOf i, flush0_2 _, ?_⟩
  obtain ⟨-, -, -, -, e4, e5, -⟩ := idx_facts (stepOf i)
  have hs : (stepOf i).val = (i 0).val / 1024 := rfl
  rw [mem_blk2]
  intro a
  match a with
  | ⟨0, _⟩ => show win0_2.index (stepOf i) (0 : Fin 2) * 1024 ≤ (i 0).val ∧ (i 0).val < win0_2.index (stepOf i) (0 : Fin 2) * 1024 + 1024; omega
  | ⟨1, _⟩ => show win0_2.index (stepOf i) (1 : Fin 2) * 1024 ≤ (i 1).val ∧ (i 1).val < win0_2.index (stepOf i) (1 : Fin 2) * 1024 + 1024; omega

/-- The first result after the run is the projection. -/
theorem final2 (c : Dev nD) : (dats m 0 c).arrAt 2 cfg0.N = logits (m ((c : Thread nD τ).loc main_arg0)) (m ((c : Thread nD τ).loc main_arg1)) :=
  (dats m 0 c).arrAt_eq_of_cover 2 _ (fun t _ => flushed2_eq m c t) cover2

/-! ## The second result -/

theorem emb3 (t : Fin cfg0.N) (p q : Fin 1024) : ((cfg0.win 3).blk t).view.emb (ix2 p q) = ix2 (rowOf t p) q := by
  obtain ⟨-, -, -, -, -, -, e6, e7⟩ := idx_facts t
  funext a; apply Fin.ext
  match a with
  | ⟨0, _⟩ => show win0_3.index t (0 : Fin 2) * 1024 + 1 * p.val = t.val * 1024 + p.val; omega
  | ⟨1, _⟩ => show win0_3.index t (1 : Fin 2) * 1024 + 1 * q.val = q.val; omega

/-- What step `t` writes back to the second result is block `t` of the anchor distances: the row of the product it
    measures is the projection's full row, the block spanning every column. -/
theorem flushed3_eq (c : Dev nD) (t : Fin cfg0.N) :
    (dats m 0 c).flushed 3 t = ((cfg0.win 3).blk t).view.read (Elt Ideal) (distances (m ((c : Thread nD τ).loc main_arg0)) (m ((c : Thread nD τ).loc main_arg1))) := by
  rw [Value.flushed3]
  unfold out0_3
  rw [View.canon_unit_zero hz]
  simp only [View.ld_unit_zero (S := S1024x768) hz, View.ld_unit_zero (S := S768x1024) hz]
  funext j
  obtain ⟨p, q, rfl⟩ : ∃ (p q : Fin 1024), j = ix2 p q := ⟨j 0, j 1, eq_ix2 j⟩
  show k0_pay2 (F := Ideal) (rowsBlk m c t) (wtBlk m c t) (ix2 p q) = distances _ _ (((cfg0.win 3).blk t).view.emb (ix2 p q))
  rw [emb3, distances_apply]
  refine (second_apply (rowsBlk m c t) (wtBlk m c t) p q).trans ?_
  exact congrArg (fun L => rowDist L q) (funext fun c' => product_at m c t p c')

theorem mem_blk3 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2_1).slice (win0_3.rect t)).set ↔ _
  rw [View.set_slice_whole, Rect.mem_set_unit]
  exact Iff.rfl

/-- Every index of the second result is in some step's block. -/
theorem cover3 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  refine ⟨stepOf i, flush0_3 _, ?_⟩
  obtain ⟨-, -, -, -, -, -, e6, e7⟩ := idx_facts (stepOf i)
  have hs : (stepOf i).val = (i 0).val / 1024 := rfl
  rw [mem_blk3]
  intro a
  match a with
  | ⟨0, _⟩ => show win0_3.index (stepOf i) (0 : Fin 2) * 1024 ≤ (i 0).val ∧ (i 0).val < win0_3.index (stepOf i) (0 : Fin 2) * 1024 + 1024; omega
  | ⟨1, _⟩ => show win0_3.index (stepOf i) (1 : Fin 2) * 1024 ≤ (i 1).val ∧ (i 1).val < win0_3.index (stepOf i) (1 : Fin 2) * 1024 + 1024; omega

/-- The second result after the run is the anchor distances. -/
theorem final3 (c : Dev nD) : (dats m 0 c).arrAt 3 cfg0.N = distances (m ((c : Thread nD τ).loc main_arg0)) (m ((c : Thread nD τ).loc main_arg1)) :=
  (dats m 0 c).arrAt_eq_of_cover 3 _ (fun t _ => flushed3_eq m c t) cover3

/-! ## The run -/

/-- Every weakly fair execution ends with the first result at the projection and the second at the anchor distances
    of the argument arrays, which are unchanged. -/
theorem run : θ_run defs (onTc (τ := τ) (main (F := Ideal))) ⟨m, fun _ => 0, ρ⟩ fun r => ∀ c : Dev nD,
      r.2.mem ((c : Thread nD τ).loc main_v2_0) = logits (m ((c : Thread nD τ).loc main_arg0)) (m ((c : Thread nD τ).loc main_arg1))
      ∧ r.2.mem ((c : Thread nD τ).loc main_v2_1) = distances (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.ArrayValue

end
-- ==== Proof.lean ====
/-
  A batch `x` (16384 × 768) is projected onto the rows of a weight matrix `w` (1024 × 768), and each row of the
  projection is measured against the diagonal anchors `10 · e_q`:
    first result   `(b, c) ↦ ∑ k, x (b, k) · w (c, k)`,
    second result  `(b, q) ↦ √ (max (∑ c, L c · L c − 20 · L q + 100) 0)` with `L` row `b` of the first.
  The kernel computes both in 16 grid steps of 1024 batch rows each, against the weights transposed once on the host;
  the reference computes them by one contraction over the whole arrays. Over the extended reals the two agree entry
  by entry: a step's block product is the projection's entry at the step's rows (the transposed weights read at
  `(k, q)` are the weights at `(q, k)`, and the changes of float format are the identity), a step's block spans every
  column so its row sums are the full rows', the 16 blocks tile the rows, and the remaining arithmetic is the same
  operations on the same three scalar words on both sides. No law that fails at the infinities is used, so the
  finiteness of the inputs is not needed for the values; the idealization rewrote nothing, so `preserves` is trivial.
-/
import proofs.«407896_j70274254897292_3_alg».proof.Defs
import proofs.«407896_j70274254897292_3_alg».proof.Proof.Gen.Kernel
import proofs.«407896_j70274254897292_3_alg».proof.Proof.Gen.Kernel.Skeleton
import proofs.«407896_j70274254897292_3_alg».proof.Proof.Gen.Kernel.Launch
import proofs.«407896_j70274254897292_3_alg».proof.Proof.Gen.Kernel.Points
import proofs.«407896_j70274254897292_3_alg».proof.Proof.Gen.Kernel.Frame
import proofs.«407896_j70274254897292_3_alg».proof.Proof.Gen.KernelIdeal
import proofs.«407896_j70274254897292_3_alg».proof.Proof.Gen.KernelIdeal.Skeleton
import proofs.«407896_j70274254897292_3_alg».proof.Proof.Gen.KernelIdeal.Launch
import proofs.«407896_j70274254897292_3_alg».proof.Proof.Gen.KernelIdeal.Points
import proofs.«407896_j70274254897292_3_alg».proof.Proof.Gen.KernelIdeal.Frame
import proofs.«407896_j70274254897292_3_alg».proof.Proof.Gen.ReferenceIdeal
import proofs.«407896_j70274254897292_3_alg».proof.Proof.Gen.Pre_finite_inputs
import proofs.«407896_j70274254897292_3_alg».proof.Proof.Gen.KernelIdeal.Value
import proofs.«407896_j70274254897292_3_alg».proof.Proof.Gen.ReferenceIdeal.Run
import proofs.«407896_j70274254897292_3_alg».proof.Proof.Gen.ReferenceIdeal.Read
import proofs.«407896_j70274254897292_3_alg».proof.Proof.ReferenceValue
import proofs.«407896_j70274254897292_3_alg».proof.Proof.BlocksToArrays
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to its operations' composed term; forget the results. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the projection in the first result and the anchor
    distances in the second: the kernel by its 16 blocks, the reference by its operations read at an index. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [(hagree c).1, (hagree c).2]
    exact (Cert.ReferenceIdeal.Read.val_main_v0_eq _ _).trans (Cert.ReferenceIdeal.RefValue.logits_eq _ _)
  · rw [(hagree c).1, (hagree c).2]
    exact (Cert.ReferenceIdeal.Read.val_main_v12_eq _ _).trans (Cert.ReferenceIdeal.RefValue.distances_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
